-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S2048x1024 : Shape := ⟨2, ![2048, 1024]⟩
abbrev S1024 : Shape := ⟨1, ![1024]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x512x1024 .f32) (main_arg1 : FVec F S8x512x1024 .f32) (main_arg2 : FVec F S8x512x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x512x1024 .f32 := Host.absf main_arg2
  let main_cst_2 : FVec F S_ .f32 := constant S_ .f32 0x7F800000#32
  let main_v10 : FVec F S8x512x1024 .f32 := broadcastInDim S8x512x1024 ![] bcast_S_S8x512x1024 main_cst_2
  let main_v11 : IVec S8x512x1024 1 := cmpf .olt main_v9 main_v10
  let main_c_3 : IVec S_ 1 := constantI S_ 1 1#1
  let main_v12 : IVec S_ 1 := (fun x v => Host.reduce IntOp.andi x v reducesTo_S8x512x1024_S_d0_1_2 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8x512x1024 : Shape := ⟨3, ![8, 512, 1024]⟩
abbrev S2048x1024 : Shape := ⟨2, ![2048, 1024]⟩
abbrev S1024 : Shape := ⟨1, ![1024]⟩
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩

abbrev nBuf : Space → Nat
  | .hbm => 26
  | .vmem => 18
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S8x512x1024, .f32⟩
  | .hbm, ⟨25, _⟩ => ⟨S8x512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S8x512x1024_S4096x1024 : S8x512x1024.ShapeCasts S4096x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S1024x1024_0_0 : ∀ a, (![0, 0] : Fin 2 → Nat) a + S1024x1024.size a ≤ S2048x1024.size a
  h_S1024x1024 : 0 < S1024x1024.numel
  shapeCasts_S1024x1024_S1024x1024 : S1024x1024.ShapeCasts S1024x1024
  inb_S2048x1024_S1024x1024_1024_0 : ∀ a, (![1024, 0] : Fin 2 → Nat) a + S1024x1024.size a ≤ S2048x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S4096x1024_S8x512x1024 : S4096x1024.ShapeCasts S8x512x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x1024.size a
  hwx0_6 : ∀ i : grid0.Coords, EltTy.bits .bf16 = 32 ∨ (Rect.block (s := S2048x1024) S2048x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S4096x1024.size a
  hwx0_12 : ∀ i : grid0.Coords, EltTy.bits .f32 = 32 ∨ (Rect.block (s := S4096x1024) S256x1024.size (cc0_transform_12 i) (hinb0_12 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2048x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11_0) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8x512x1024 : Shape := ⟨3, ![8, 512, 1024]⟩
abbrev S2048x1024 : Shape := ⟨2, ![2048, 1024]⟩
abbrev S1024 : Shape := ⟨1, ![1024]⟩
abbrev S8x512x2048 : Shape := ⟨3, ![8, 512, 2048]⟩
abbrev S2048x4096 : Shape := ⟨2, ![2048, 4096]⟩
abbrev S4096 : Shape := ⟨1, ![4096]⟩
abbrev S8x512x4096 : Shape := ⟨3, ![8, 512, 4096]⟩
abbrev S1x1x4096 : Shape := ⟨3, ![1, 1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8x512x2048, .f32⟩
  | .hbm, ⟨12, _⟩ => ⟨S2048x4096, .f32⟩
  | .hbm, ⟨13, _⟩ => ⟨S4096, .f32⟩
  | .hbm, ⟨14, _⟩ => ⟨S8x512x4096, .f32⟩
  | .hbm, ⟨15, _⟩ => ⟨S1x1x4096, .f32⟩
  | .hbm, ⟨16, _⟩ => ⟨S8x512x4096, .f32⟩
  | .hbm, ⟨17, _⟩ => ⟨S8x512x4096, .f32⟩
  | .hbm, ⟨18, _⟩ => ⟨S8x512x1024, .f32⟩
  | .hbm, ⟨19, _⟩ => ⟨S8x512x1024, .f32⟩
  | .hbm, ⟨20, _⟩ => ⟨S8x512x1024, .f32⟩
  | .hbm, ⟨21, _⟩ => ⟨S8x512x1024, .f32⟩
  | .hbm, ⟨22, _⟩ => ⟨S8x512x1024, .f32⟩
  | .hbm, ⟨23, _⟩ => ⟨S8x512x1024, .f32⟩
  | .hbm, ⟨24, _⟩ => ⟨S_, .f32⟩
  | .hbm, ⟨25, _⟩ => ⟨S8x512x1024, .f32⟩
  | .hbm, ⟨26, _⟩ => ⟨S8x512x1024, .f32⟩
  | .hbm, ⟨27, _⟩ => ⟨S_, .f32⟩
  | .hbm, ⟨28, _⟩ => ⟨S8x512x1024, .f32⟩
  | .hbm, ⟨29, _⟩ => ⟨S8x512x1024, .f32⟩
  | .hbm, ⟨30, _⟩ => ⟨S8x512x1024, .f32⟩
  | .hbm, ⟨31, _⟩ => ⟨S8x512x1024, .f32⟩
  | .hbm, ⟨32, _⟩ => ⟨S_, .f32⟩
  | .hbm, ⟨33, _⟩ => ⟨S8x512x1024, .f32⟩
  | .hbm, ⟨34, _⟩ => ⟨S8x512x1024, .f32⟩
  | .hbm, ⟨35, _⟩ => ⟨S_, .f32⟩
  | .hbm, ⟨36, _⟩ => ⟨S8x512x1024, .f32⟩
  | .hbm, ⟨37, _⟩ => ⟨S8x512x1024, .f32⟩
  | .hbm, ⟨38, _⟩ => ⟨S8x512x1024, .f32⟩
  | .hbm, ⟨39, _⟩ => ⟨S8x512x1024, .f32⟩
  | .hbm, ⟨40, _⟩ => ⟨S8x512x1024, .f32⟩
  | .hbm, ⟨41, _⟩ => ⟨S_, .f32⟩
  | .hbm, ⟨42, _⟩ => ⟨S8x512x1024, .f32⟩
  | .hbm, ⟨43, _⟩ => ⟨S8x512x1024, .f32⟩
  | .hbm, ⟨44, _⟩ => ⟨S_, .f32⟩
  | .hbm, ⟨45, _⟩ => ⟨S8x512x1024, .f32⟩
  | .hbm, ⟨46, _⟩ => ⟨S8x512x1024, .f32⟩
  | .hbm, ⟨47, _⟩ => ⟨S8x512x1024, .f32⟩
  | .hbm, ⟨48, _⟩ => ⟨S8x512x1024, .f32⟩
  | .hbm, ⟨49, _⟩ => ⟨S8x512x1024, .f32⟩
  | .hbm, ⟨50, _⟩ => ⟨S8x512x1024, .f32⟩
  | .hbm, ⟨51, _⟩ => ⟨S8x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8x512x1024_S8x512x1024_S8x512x2048_d2 : Shape.Concatenates [S8x512x1024, S8x512x1024] S8x512x2048 2
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x1x4096_2 : S4096.BroadcastsInDim S1x1x4096 (![2] : Fin 1 → Fin S1x1x4096.rank)
  bcast_S1x1x4096_S8x512x4096_0_1_2 : S1x1x4096.BroadcastsInDim S8x512x4096 (![0, 1, 2] : Fin 3 → Fin S8x512x4096.rank)
  slices_S8x512x4096_S8x512x1024_0_0_0 : S8x512x4096.Slices ![0, 0, 0] S8x512x1024
  slices_S8x512x4096_S8x512x1024_0_0_1024 : S8x512x4096.Slices ![0, 0, 1024] S8x512x1024
  slices_S8x512x4096_S8x512x1024_0_0_2048 : S8x512x4096.Slices ![0, 0, 2048] S8x512x1024
  slices_S8x512x4096_S8x512x1024_0_0_3072 : S8x512x4096.Slices ![0, 0, 3072] S8x512x1024
  bcast_S_S8x512x1024 : S_.BroadcastsInDim S8x512x1024 (![] : Fin 0 → Fin S8x512x1024.rank)
  dot_S8x512x2048_S2048x4096_S8x512x4096_2_0_01_1_n_n_wf : DotDims.WF S8x512x2048 S2048x4096 S8x512x4096 [2] [0] [0, 1] [1] [] []

variable [Facts₀]

def dot_S8x512x2048_S2048x4096_S8x512x4096_2_0_01_1_n_n : DotDims S8x512x2048 S2048x4096 S8x512x4096 where
  lhsContracting := [2]
  rhsContracting := [0]
  lhsNonContracting := [0, 1]
  rhsNonContracting := [1]
  lhsBatch := []
  rhsBatch := []
  wf := dot_S8x512x2048_S2048x4096_S8x512x4096_2_0_01_1_n_n_wf

class Facts : Prop extends Facts₀ where

variable [Facts]
-- ==== Proof.Cell.lean ====
/-
  The LSTM cell as mathematics on the extended reals.

  One output element depends on one row of x (1024 entries), the same row of h (1024 entries), one column of each
  of the four weight matrices (2048 entries: the first 1024 rows meet x, the last 1024 meet h), one entry of each
  bias and one entry of the incoming cell state:

    gate   = (Σ_k x_k · W[k, j] + Σ_k h_k · W[1024 + k, j]) + b[j]
    c_out  = σ(gate_f) · c_in + tanh(gate_g) · σ(gate_i)
    h_out  = tanh(c_out) · σ(gate_o)

  with σ(z) = 1 / (1 + e^{-z}). A program that multiplies the joined row [x, h] with the whole 2048-row column
  computes the same gate: a sum over 2048 terms is the sum of its first 1024 and its last 1024 terms, in any
  commutative monoid, so also on the extended reals with their infinities.
-/
import Idealize.ShloMosaic.PureOps.Ideal
import Idealize.ShloMosaic.Lib.ValueIdx

noncomputable section

open scoped BigOperators

namespace Cert.Cell

open Idealize.ShloMosaic Idealize.ShloMosaic.ValueIdx

/-- Row `k` of the upper half of a 2048-row weight matrix: the rows that meet x. -/
def lo (k : Fin 1024) : Fin 2048 := ⟨k.val, by have := k.isLt; omega⟩
/-- Row `1024 + k`: the rows that meet h. -/
def hi (k : Fin 1024) : Fin 2048 := ⟨1024 + k.val, by have := k.isLt; omega⟩

@[simp] theorem lo_val (k : Fin 1024) : (lo k).val = k.val := rfl
@[simp] theorem hi_val (k : Fin 1024) : (hi k).val = 1024 + k.val := rfl

/-- A sum over the 2048 rows is the sum over the upper half plus the sum over the lower half. -/
theorem sum_halves {M : Type*} [AddCommMonoid M] (f : Fin 2048 → M) :
    ∑ d : Fin 2048, f d = ∑ k : Fin 1024, f (lo k) + ∑ k : Fin 1024, f (hi k) := by
  have h := Fin.sum_univ_add (a := 1024) (b := 1024) (fun d : Fin (1024 + 1024) => f d)
  exact h

/-- One gate's pre-activation from a row of x, a row of h, the two halves of a weight column and a bias entry. -/
def gate (xr hr wlo whi : Fin 1024 → EReal) (b : EReal) : EReal :=
  (∑ k : Fin 1024, xr k * wlo k + ∑ k : Fin 1024, hr k * whi k) + b

/-- The same pre-activation from the joined row and the whole column. -/
theorem gate_of_joined (xh : Fin 2048 → EReal) (w : Fin 2048 → EReal) (b : EReal) :
    (∑ d : Fin 2048, xh d * w d) + b = gate (fun k => xh (lo k)) (fun k => xh (hi k)) (fun k => w (lo k)) (fun k => w (hi k)) b := by
  unfold gate
  rw [sum_halves]

/-- The pattern of the float 1.0 denotes the real number one. -/
theorem one_f32 : Ideal.ofBits .f32 0x3F800000#32 = 1 := by
  simp [Ideal.ofBits, Ideal.ieee, -EReal.coe_mul]; norm_num

/-- The logistic function spelt as a quotient, `1 / (1 + e^{-z})` with the float 1.0 for both ones, is the
    logistic function. -/
theorem logistic_spelt (z : EReal) :
    Ideal.div (Ideal.ofBits .f32 0x3F800000#32) (Ideal.ofBits .f32 0x3F800000#32 + Ideal.exp (-z)) = Ideal.logistic z := by
  rw [one_f32]; rfl

/-- The new cell state from the forget, input and candidate pre-activations and the old cell state. -/
def cNew (zf zi zg c : EReal) : EReal := Ideal.logistic zf * c + Ideal.tanh zg * Ideal.logistic zi

/-- The new hidden state. -/
def hNew (zf zi zg zo c : EReal) : EReal := Ideal.tanh (cNew zf zi zg c) * Ideal.logistic zo

/-! ## The cell over whole arrays -/

abbrev SX : Shape := ⟨3, ![8, 512, 1024]⟩
abbrev SW : Shape := ⟨2, ![2048, 1024]⟩
abbrev SB : Shape := ⟨1, ![1024]⟩

/-- The gate for row `(b, t)` of x and h, weight matrix `w`, bias `β`, column `j`. -/
def gateOf (x h : SX.Idx → EReal) (w : SW.Idx → EReal) (β : SB.Idx → EReal) (b : Fin 8) (t : Fin 512) (j : Fin 1024) : EReal :=
  gate (fun k => x (ix3 b t k)) (fun k => h (ix3 b t k)) (fun k => w (ix2 (lo k) j)) (fun k => w (ix2 (hi k) j)) (β (ix1 j))

/-- The new cell state as an array: forget gate times old state plus candidate times input gate. -/
def cellC (x h c : SX.Idx → EReal) (wf : SW.Idx → EReal) (bf : SB.Idx → EReal) (wi : SW.Idx → EReal) (bi : SB.Idx → EReal)
    (wg : SW.Idx → EReal) (bg : SB.Idx → EReal) : SX.Idx → EReal := fun i =>
  cNew (gateOf x h wf bf (i 0) (i 1) (i 2)) (gateOf x h wi bi (i 0) (i 1) (i 2)) (gateOf x h wg bg (i 0) (i 1) (i 2)) (c i)

/-- The new hidden state as an array. -/
def cellH (x h c : SX.Idx → EReal) (wf : SW.Idx → EReal) (bf : SB.Idx → EReal) (wi : SW.Idx → EReal) (bi : SB.Idx → EReal)
    (wg : SW.Idx → EReal) (bg : SB.Idx → EReal) (wo : SW.Idx → EReal) (bo : SB.Idx → EReal) : SX.Idx → EReal := fun i =>
  hNew (gateOf x h wf bf (i 0) (i 1) (i 2)) (gateOf x h wi bi (i 0) (i 1) (i 2)) (gateOf x h wg bg (i 0) (i 1) (i 2))
    (gateOf x h wo bo (i 0) (i 1) (i 2)) (c i)

end Cert.Cell

end
-- ==== Proof.RefGates.lean ====
/-
  The reference program's two results read index by index.

  The reference joins x and h along the feature axis, joins the four weight matrices along their column axis and the
  four biases end to end, forms ONE product of the joined row with the joined matrix, adds the joined bias and cuts
  the sum into four bands of 1024 columns. Read at one element: band g, column j of the sum is the product of the
  joined row with column 1024·g + j of the joined matrix, which is column j of the g-th weight matrix; the joined
  row's first 1024 entries are the row of x and its last 1024 the row of h. So each band is the gate of Cell.lean.
-/
import proofs.«141328_j30734785970219_1_alg».proof.Proof.Gen.ReferenceIdeal.Read
import proofs.«141328_j30734785970219_1_alg».proof.Proof.Cell

noncomputable section

open scoped BigOperators

namespace Cert.ReferenceIdeal.RefGates

open Cert.ReferenceIdeal Cert.ReferenceIdeal.Gen Cert.ReferenceIdeal.Read Idealize.ShloMosaic Idealize.ShloMosaic.ValueIdx
open Cert.Cell

abbrev XArr := S8x512x1024.Idx → EReal
abbrev WArr := S2048x1024.Idx → EReal
abbrev BArr := S1024.Idx → EReal

/-! ## The joined arrays at an index -/

/-- The joined row's first 1024 entries are x's row. -/
theorem joined_row_lo (x h : XArr) (b : Fin 8) (t : Fin 512) (k : Fin 1024) :
    val_main_v0 (F := Ideal) x h (ix3 b t (lo k)) = x (ix3 b t k) := by
  unfold val_main_v0
  refine concatenate_pair_apply_left (t := S8x512x2048) 2 x h concatenates_S8x512x1024_S8x512x1024_S8x512x2048_d2
    (ix3 b t (lo k)) rfl (ix3 b t k) fun a => ?_
  match a with
  | ⟨0, _⟩ => rfl
  | ⟨1, _⟩ => rfl
  | ⟨2, _⟩ => rfl

/-- The joined row's last 1024 entries are h's row. -/
theorem joined_row_hi (x h : XArr) (b : Fin 8) (t : Fin 512) (k : Fin 1024) :
    val_main_v0 (F := Ideal) x h (ix3 b t (hi k)) = h (ix3 b t k) := by
  unfold val_main_v0
  refine concatenate_pair_apply_right (t := S8x512x2048) 2 x h concatenates_S8x512x1024_S8x512x1024_S8x512x2048_d2
    (ix3 b t (hi k)) rfl rfl (ix3 b t k) (fun a ha => ?_) ?_
  · match a with
    | ⟨0, _⟩ => rfl
    | ⟨1, _⟩ => rfl
    | ⟨2, _⟩ => exact absurd rfl ha
  · show k.val + 1024 = 1024 + k.val
    omega

/-- Column `j` of band 0 of the joined matrix is column `j` of the first weight matrix. -/
theorem joined_col_0 (w0 w1 w2 w3 : WArr) (d : Fin 2048) (j : Fin 1024) (n : Fin 4096) (hn : n.val = j.val) :
    val_main_v1 (F := Ideal) w0 w1 w2 w3 (ix2 d n) = w0 (ix2 d j) := by
  unfold val_main_v1
  refine concatenate_apply_piece (t := S2048x4096) 1 [⟨S2048x1024, w0⟩, ⟨S2048x1024, w1⟩, ⟨S2048x1024, w2⟩, ⟨S2048x1024, w3⟩]
    concatenates_S2048x1024_S2048x1024_S2048x1024_S2048x1024_S2048x4096_d1
    (ix2 d n) 0 (by simp) S2048x1024 w0 rfl rfl 0 rfl (ix2 d j) (fun a ha => ?_) ?_
  · match a with
    | ⟨0, _⟩ => rfl
    | ⟨1, _⟩ => exact absurd rfl ha
  · show 0 + j.val = n.val
    omega

/-- Column `j` of band 1 of the joined matrix is column `j` of the second weight matrix. -/
theorem joined_col_1 (w0 w1 w2 w3 : WArr) (d : Fin 2048) (j : Fin 1024) (n : Fin 4096) (hn : n.val = 1024 + j.val) :
    val_main_v1 (F := Ideal) w0 w1 w2 w3 (ix2 d n) = w1 (ix2 d j) := by
  unfold val_main_v1
  refine concatenate_apply_piece (t := S2048x4096) 1 [⟨S2048x1024, w0⟩, ⟨S2048x1024, w1⟩, ⟨S2048x1024, w2⟩, ⟨S2048x1024, w3⟩]
    concatenates_S2048x1024_S2048x1024_S2048x1024_S2048x1024_S2048x4096_d1
    (ix2 d n) 1 (by simp) S2048x1024 w1 rfl rfl 1024 rfl (ix2 d j) (fun a ha => ?_) ?_
  · match a with
    | ⟨0, _⟩ => rfl
    | ⟨1, _⟩ => exact absurd rfl ha
  · show 1024 + j.val = n.val
    omega

/-- Column `j` of band 2 of the joined matrix is column `j` of the third weight matrix. -/
theorem joined_col_2 (w0 w1 w2 w3 : WArr) (d : Fin 2048) (j : Fin 1024) (n : Fin 4096) (hn : n.val = 2048 + j.val) :
    val_main_v1 (F := Ideal) w0 w1 w2 w3 (ix2 d n) = w2 (ix2 d j) := by
  unfold val_main_v1
  refine concatenate_apply_piece (t := S2048x4096) 1 [⟨S2048x1024, w0⟩, ⟨S2048x1024, w1⟩, ⟨S2048x1024, w2⟩, ⟨S2048x1024, w3⟩]
    concatenates_S2048x1024_S2048x1024_S2048x1024_S2048x1024_S2048x4096_d1
    (ix2 d n) 2 (by simp) S2048x1024 w2 rfl rfl 2048 rfl (ix2 d j) (fun a ha => ?_) ?_
  · match a with
    | ⟨0, _⟩ => rfl
    | ⟨1, _⟩ => exact absurd rfl ha
  · show 2048 + j.val = n.val
    omega

/-- Column `j` of band 3 of the joined matrix is column `j` of the fourth weight matrix. -/
theorem joined_col_3 (w0 w1 w2 w3 : WArr) (d : Fin 2048) (j : Fin 1024) (n : Fin 4096) (hn : n.val = 3072 + j.val) :
    val_main_v1 (F := Ideal) w0 w1 w2 w3 (ix2 d n) = w3 (ix2 d j) := by
  unfold val_main_v1
  refine concatenate_apply_piece (t := S2048x4096) 1 [⟨S2048x1024, w0⟩, ⟨S2048x1024, w1⟩, ⟨S2048x1024, w2⟩, ⟨S2048x1024, w3⟩]
    concatenates_S2048x1024_S2048x1024_S2048x1024_S2048x1024_S2048x4096_d1
    (ix2 d n) 3 (by simp) S2048x1024 w3 rfl rfl 3072 rfl (ix2 d j) (fun a ha => ?_) ?_
  · match a with
    | ⟨0, _⟩ => rfl
    | ⟨1, _⟩ => exact absurd rfl ha
  · show 3072 + j.val = n.val
    omega

/-- Entry `j` of band 0 of the joined bias is entry `j` of the first bias. -/
theorem joined_bias_0 (b0 b1 b2 b3 : BArr) (j : Fin 1024) (n : Fin 4096) (hn : n.val = j.val) :
    val_main_v2 (F := Ideal) b0 b1 b2 b3 (ix1 n) = b0 (ix1 j) := by
  unfold val_main_v2
  refine concatenate_apply_piece (t := S4096) 0 [⟨S1024, b0⟩, ⟨S1024, b1⟩, ⟨S1024, b2⟩, ⟨S1024, b3⟩]
    concatenates_S1024_S1024_S1024_S1024_S4096_d0
    (ix1 n) 0 (by simp) S1024 b0 rfl rfl 0 rfl (ix1 j) (fun a ha => ?_) ?_
  · match a with
    | ⟨0, _⟩ => exact absurd rfl ha
  · show 0 + j.val = n.val
    omega

/-- Entry `j` of band 1 of the joined bias is entry `j` of the second bias. -/
theorem joined_bias_1 (b0 b1 b2 b3 : BArr) (j : Fin 1024) (n : Fin 4096) (hn : n.val = 1024 + j.val) :
    val_main_v2 (F := Ideal) b0 b1 b2 b3 (ix1 n) = b1 (ix1 j) := by
  unfold val_main_v2
  refine concatenate_apply_piece (t := S4096) 0 [⟨S1024, b0⟩, ⟨S1024, b1⟩, ⟨S1024, b2⟩, ⟨S1024, b3⟩]
    concatenates_S1024_S1024_S1024_S1024_S4096_d0
    (ix1 n) 1 (by simp) S1024 b1 rfl rfl 1024 rfl (ix1 j) (fun a ha => ?_) ?_
  · match a with
    | ⟨0, _⟩ => exact absurd rfl ha
  · show 1024 + j.val = n.val
    omega

/-- Entry `j` of band 2 of the joined bias is entry `j` of the third bias. -/
theorem joined_bias_2 (b0 b1 b2 b3 : BArr) (j : Fin 1024) (n : Fin 4096) (hn : n.val = 2048 + j.val) :
    val_main_v2 (F := Ideal) b0 b1 b2 b3 (ix1 n) = b2 (ix1 j) := by
  unfold val_main_v2
  refine concatenate_apply_piece (t := S4096) 0 [⟨S1024, b0⟩, ⟨S1024, b1⟩, ⟨S1024, b2⟩, ⟨S1024, b3⟩]
    concatenates_S1024_S1024_S1024_S1024_S4096_d0
    (ix1 n) 2 (by simp) S1024 b2 rfl rfl 2048 rfl (ix1 j) (fun a ha => ?_) ?_
  · match a with
    | ⟨0, _⟩ => exact absurd rfl ha
  · show 2048 + j.val = n.val
    omega

/-- Entry `j` of band 3 of the joined bias is entry `j` of the fourth bias. -/
theorem joined_bias_3 (b0 b1 b2 b3 : BArr) (j : Fin 1024) (n : Fin 4096) (hn : n.val = 3072 + j.val) :
    val_main_v2 (F := Ideal) b0 b1 b2 b3 (ix1 n) = b3 (ix1 j) := by
  unfold val_main_v2
  refine concatenate_apply_piece (t := S4096) 0 [⟨S1024, b0⟩, ⟨S1024, b1⟩, ⟨S1024, b2⟩, ⟨S1024, b3⟩]
    concatenates_S1024_S1024_S1024_S1024_S4096_d0
    (ix1 n) 3 (by simp) S1024 b3 rfl rfl 3072 rfl (ix1 j) (fun a ha => ?_) ?_
  · match a with
    | ⟨0, _⟩ => exact absurd rfl ha
  · show 3072 + j.val = n.val
    omega

/-! ## One band of the biased product is a gate -/

/-- The biased product at row `(b, t)` and joined column `n`, where the joined matrix's column `n` is column `j` of
    `w` and the joined bias's entry `n` is entry `j` of `β`, is that gate: the joined row's two halves are the rows
    of x and of h, and the sum over 2048 splits into its halves. -/
theorem biased_product (x h : XArr) (w0 w1 w2 w3 : WArr) (b0 b1 b2 b3 : BArr) (w : WArr) (β : BArr)
    (b : Fin 8) (t : Fin 512) (j : Fin 1024) (n : Fin 4096)
    (hw : ∀ d : Fin 2048, val_main_v1 (F := Ideal) w0 w1 w2 w3 (ix2 d n) = w (ix2 d j))
    (hβ : val_main_v2 (F := Ideal) b0 b1 b2 b3 (ix1 n) = β (ix1 j)) :
    val_main_v6 (F := Ideal) x h w0 b0 w1 b1 w2 b2 w3 b3 (ix3 b t n) = gateOf x h w β b t j := by
  unfold gateOf
  rw [val_main_v6_apply, val_main_v3_apply, val_main_v5_apply, val_main_v4_apply]
  have el : ∀ k : Fin 2048, lidx_main_v3 (ix3 b t n) k = ix3 b t k := fun k =>
    funext fun a => by match a with | ⟨0, _⟩ => rfl | ⟨1, _⟩ => rfl | ⟨2, _⟩ => rfl
  have er : ∀ k : Fin 2048, ridx_main_v3 (ix3 b t n) k = ix2 k n := fun k =>
    funext fun a => by match a with | ⟨0, _⟩ => rfl | ⟨1, _⟩ => rfl
  have eb : idx_main_v4 (idx_main_v5 (ix3 b t n)) = ix1 n :=
    funext fun a => by match a with | ⟨0, _⟩ => rfl
  simp only [el, er, eb, hw, hβ, Ideal.addf_def]
  rw [gate_of_joined (fun d => val_main_v0 (F := Ideal) x h (ix3 b t d)) (fun d => w (ix2 d j))]
  simp only [joined_row_lo, joined_row_hi]

/-! ## The four bands -/

section Bands
variable (x h c : XArr) (wf : WArr) (bf : BArr) (wi : WArr) (bi : BArr) (wg : WArr) (bg : BArr) (wo : WArr) (bo : BArr)
variable (b : Fin 8) (t : Fin 512) (j : Fin 1024)

/-- Band 0 is the forget gate. -/
theorem band_f : val_main_v7 (F := Ideal) x h wf bf wi bi wg bg wo bo (ix3 b t j) = gateOf x h wf bf b t j := by
  rw [val_main_v7_apply]
  have e : idx_main_v7 (ix3 b t j) = ix3 b t (⟨j.val, by have := j.isLt; omega⟩ : Fin 4096) :=
    funext fun a => by match a with | ⟨0, _⟩ => rfl | ⟨1, _⟩ => rfl | ⟨2, _⟩ => rfl
  rw [e]
  exact biased_product x h wf wi wg wo bf bi bg bo wf bf b t j _ (fun d => joined_col_0 _ _ _ _ d j _ rfl) (joined_bias_0 _ _ _ _ j _ rfl)

/-- Band 1 is the input gate. -/
theorem band_i : val_main_v8 (F := Ideal) x h wf bf wi bi wg bg wo bo (ix3 b t j) = gateOf x h wi bi b t j := by
  rw [val_main_v8_apply]
  have e : idx_main_v8 (ix3 b t j) = ix3 b t (⟨1024 + j.val, by have := j.isLt; omega⟩ : Fin 4096) :=
    funext fun a => by match a with | ⟨0, _⟩ => rfl | ⟨1, _⟩ => rfl | ⟨2, _⟩ => rfl
  rw [e]
  exact biased_product x h wf wi wg wo bf bi bg bo wi bi b t j _ (fun d => joined_col_1 _ _ _ _ d j _ rfl) (joined_bias_1 _ _ _ _ j _ rfl)

/-- Band 2 is the candidate. -/
theorem band_g : val_main_v9 (F := Ideal) x h wf bf wi bi wg bg wo bo (ix3 b t j) = gateOf x h wg bg b t j := by
  rw [val_main_v9_apply]
  have e : idx_main_v9 (ix3 b t j) = ix3 b t (⟨2048 + j.val, by have := j.isLt; omega⟩ : Fin 4096) :=
    funext fun a => by match a with | ⟨0, _⟩ => rfl | ⟨1, _⟩ => rfl | ⟨2, _⟩ => rfl
  rw [e]
  exact biased_product x h wf wi wg wo bf bi bg bo wg bg b t j _ (fun d => joined_col_2 _ _ _ _ d j _ rfl) (joined_bias_2 _ _ _ _ j _ rfl)

/-- Band 3 is the output gate. -/
theorem band_o : val_main_v10 (F := Ideal) x h wf bf wi bi wg bg wo bo (ix3 b t j) = gateOf x h wo bo b t j := by
  rw [val_main_v10_apply]
  have e : idx_main_v10 (ix3 b t j) = ix3 b t (⟨3072 + j.val, by have := j.isLt; omega⟩ : Fin 4096) :=
    funext fun a => by match a with | ⟨0, _⟩ => rfl | ⟨1, _⟩ => rfl | ⟨2, _⟩ => rfl
  rw [e]
  exact biased_product x h wf wi wg wo bf bi bg bo wo bo b t j _ (fun d => joined_col_3 _ _ _ _ d j _ rfl) (joined_bias_3 _ _ _ _ j _ rfl)

end Bands

/-! ## The two results -/

section Results
variable (x h c : XArr) (wf : WArr) (bf : BArr) (wi : WArr) (bi : BArr) (wg : WArr) (bg : BArr) (wo : WArr) (bo : BArr)

/-- The reference's new cell state is the cell's: the quotient `1 / (1 + e^{-z})` the reference spells is the
    logistic function, band by band. -/
theorem ref_c : val_main_v32 (F := Ideal) x h c wf bf wi bi wg bg wo bo = cellC x h c wf bf wi bi wg bg := by
  funext i
  obtain ⟨b, t, j, rfl⟩ : ∃ (b : Fin 8) (t : Fin 512) (j : Fin 1024), i = ix3 b t j := ⟨i 0, i 1, i 2, eq_ix3 i⟩
  rw [val_main_v32_apply, val_main_v30_apply, val_main_v31_apply, val_main_v16_apply, val_main_v15_apply, val_main_cst_0_apply,
    val_main_v14_apply, val_main_v13_apply, val_main_cst_apply, val_main_v12_apply, val_main_v11_apply, band_f,
    val_main_v23_apply, band_g,
    val_main_v22_apply, val_main_v21_apply, val_main_cst_2_apply, val_main_v20_apply, val_main_v19_apply, val_main_cst_1_apply,
    val_main_v18_apply, val_main_v17_apply, band_i]
  simp only [Ideal.hostDivf_def, Ideal.addf_def, Ideal.mulf_def, Ideal.hostUnary_exp_def, Ideal.hostUnary_tanh_def,
    Ideal.hostNegf_def, Ideal.negf_def, Ideal.ofBits_def, logistic_spelt]
  rfl

/-- The reference's new hidden state is the cell's. -/
theorem ref_h : val_main_v34 (F := Ideal) x h c wf bf wi bi wg bg wo bo = cellH x h c wf bf wi bi wg bg wo bo := by
  funext i
  rw [val_main_v34_apply, val_main_v33_apply, ref_c]
  obtain ⟨b, t, j, rfl⟩ : ∃ (b : Fin 8) (t : Fin 512) (j : Fin 1024), i = ix3 b t j := ⟨i 0, i 1, i 2, eq_ix3 i⟩
  rw [val_main_v29_apply, val_main_v28_apply, val_main_cst_4_apply, val_main_v27_apply, val_main_v26_apply, val_main_cst_3_apply,
    val_main_v25_apply, val_main_v24_apply, band_o]
  simp only [Ideal.hostDivf_def, Ideal.addf_def, Ideal.mulf_def, Ideal.hostUnary_exp_def, Ideal.hostUnary_tanh_def,
    Ideal.hostNegf_def, Ideal.negf_def, Ideal.ofBits_def, logistic_spelt]
  rfl

end Results

end Cert.ReferenceIdeal.RefGates

end
-- ==== Proof.KernelBlock.lean ====
/-
  What the kernel body leaves in its two output blocks, read at one element.

  The body sees a block of 256 rows of x, h and c_in, the four whole weight matrices and the four biases as 1×1024
  rows. For each gate it multiplies the x block with the upper 1024 rows of the weight matrix and the h block with the
  lower 1024 rows, each product into a zero accumulator, adds the two and adds the bias row broadcast down the block.
  At element (p, q) of the block a product into zero is the sum over k of (row p of the left block) · (column q of the
  right block), so the pre-activation is the gate of Cell.lean for row p of the x and h blocks and column q of the
  weight matrix; the logistic and tanh are applied element by element.
-/
import proofs.«141328_j30734785970219_1_alg».proof.Proof.Gen.KernelIdeal.Frame
import proofs.«141328_j30734785970219_1_alg».proof.Proof.Cell
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx
open Cert.Cell

/-! ## A block product into zero at an element -/

theorem lhs_axis0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_axis1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_axis0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_axis1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Element (p, q) of a 256×1024 by 1024×1024 product into a zero accumulator: row p of the left factor against column q
    of the right. -/
theorem product_apply (a : FVec Ideal S256x1024 .bf16) (w : FVec Ideal S1024x1024 .bf16) (p : Fin 256) (q : Fin 1024) :
    matmul dot_S256x1024_S1024x1024_S256x1024_1_0_0_1_n_n none a w (constant (F := Ideal) S256x1024 .f32 0x00000000#32) (ix2 p q)
      = ∑ k : Fin 1024, a (ix2 p k) * w (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- A 1×1024 row broadcast down a 256-row block reads its entry q at every row. -/
theorem bias_apply (β : S1x1024.Idx → EReal) (p : Fin 256) (q : Fin 1024) :
    broadcastTo S256x1024 β broadcasts_S1x1024_S256x1024 (ix2 p q) = β (ix2 (0 : Fin 1) q) := by
  refine broadcastTo_apply β broadcasts_S1x1024_S256x1024 (ix2 p q) (ix2 (0 : Fin 1) q) fun a => ?_
  match a with
  | ⟨0, _⟩ => rfl
  | ⟨1, _⟩ => rfl

/-! ## The body's pure terms at an element -/

/-- The gate read off blocks: row `p` of the x and h blocks, column `q` of the two weight halves, entry `q` of the
    bias row. -/
abbrev blockGate (xb hb : S256x1024.Idx → EReal) (wlo whi : S1024x1024.Idx → EReal) (β : S1x1024.Idx → EReal)
    (p : Fin 256) (q : Fin 1024) : EReal :=
  gate (fun k => xb (ix2 p k)) (fun k => hb (ix2 p k)) (fun k => wlo (ix2 k q)) (fun k => whi (ix2 k q)) (β (ix2 (0 : Fin 1) q))

/-- The forget gate's activation at an element. -/
theorem forget_apply (v0 v3 : Vec Ideal S256x1024 .f32) (v8 v10 : Vec Ideal S1024x1024 .bf16) (v15 : Vec Ideal S1x1024 .f32)
    (p : Fin 256) (q : Fin 1024) :
    k0_pay6 v0 v3 v8 v10 v15 (ix2 p q) = Ideal.logistic (blockGate v0 v3 v8 v10 v15 p q) := by
  unfold k0_pay6 k0_pay3 k0_pay4
  simp only [shapeCast_self]
  show Ideal.logistic ((matmul (F := Ideal) dot_S256x1024_S1024x1024_S256x1024_1_0_0_1_n_n none (truncf .bf16 v0 bitsLt_bf16_f32) v8 _ (ix2 p q)
    + matmul (F := Ideal) dot_S256x1024_S1024x1024_S256x1024_1_0_0_1_n_n none (truncf .bf16 v3 bitsLt_bf16_f32) v10 _ (ix2 p q)) + broadcastTo S256x1024 v15 _ (ix2 p q)) = _
  rw [product_apply, product_apply, bias_apply]
  rfl

/-- The input gate's activation at an element. -/
theorem input_apply (v0 v3 : Vec Ideal S256x1024 .f32) (v20 v22 : Vec Ideal S1024x1024 .bf16) (v27 : Vec Ideal S1x1024 .f32)
    (p : Fin 256) (q : Fin 1024) :
    k0_pay7 v0 v3 v20 v22 v27 (ix2 p q) = Ideal.logistic (blockGate v0 v3 v20 v22 v27 p q) := by
  unfold k0_pay7 k0_pay3 k0_pay4
  simp only [shapeCast_self]
  show Ideal.logistic ((matmul (F := Ideal) dot_S256x1024_S1024x1024_S256x1024_1_0_0_1_n_n none (truncf .bf16 v0 bitsLt_bf16_f32) v20 _ (ix2 p q)
    + matmul (F := Ideal) dot_S256x1024_S1024x1024_S256x1024_1_0_0_1_n_n none (truncf .bf16 v3 bitsLt_bf16_f32) v22 _ (ix2 p q)) + broadcastTo S256x1024 v27 _ (ix2 p q)) = _
  rw [product_apply, product_apply, bias_apply]
  rfl

/-- The new cell state's block at an element, from the two activations already formed, the candidate's operands and the
    old state's block. -/
theorem cstate_apply (v2 v5 : FVec Ideal S256x1024 .bf16) (v7 v19 v31 : FVec Ideal S256x1024 .f32)
    (v33 : FVec Ideal S1024x1024 .bf16) (v34 : Vec Ideal S1024x1024 .bf16) (v39 : Vec Ideal S1x1024 .f32)
    (p : Fin 256) (q : Fin 1024) :
    k0_pay1 v2 v5 v7 v19 v31 v33 v34 v39 (ix2 p q)
      = v19 (ix2 p q) * v7 (ix2 p q) + Ideal.tanh (blockGate v2 v5 v33 v34 v39 p q) * v31 (ix2 p q) := by
  unfold k0_pay1
  simp only [shapeCast_self]
  show v19 (ix2 p q) * v7 (ix2 p q) + Ideal.tanh ((matmul dot_S256x1024_S1024x1024_S256x1024_1_0_0_1_n_n none v2 v33 _ (ix2 p q) + matmul dot_S256x1024_S1024x1024_S256x1024_1_0_0_1_n_n none v5 v34 _ (ix2 p q))
    + broadcastTo S256x1024 v39 _ (ix2 p q)) * v31 (ix2 p q) = _
  rw [product_apply, product_apply, bias_apply]
  rfl

/-- The new hidden state's block at an element. -/
theorem hstate_apply (v2 v5 : FVec Ideal S256x1024 .bf16) (v7 v19 v31 : FVec Ideal S256x1024 .f32)
    (v33 : FVec Ideal S1024x1024 .bf16) (v34 : Vec Ideal S1024x1024 .bf16) (v39 : Vec Ideal S1x1024 .f32)
    (v44 v46 : Vec Ideal S1024x1024 .bf16) (v51 : Vec Ideal S1x1024 .f32) (p : Fin 256) (q : Fin 1024) :
    k0_pay2 v2 v5 v7 v19 v31 v33 v34 v39 v44 v46 v51 (ix2 p q)
      = Ideal.tanh (k0_pay1 v2 v5 v7 v19 v31 v33 v34 v39 (ix2 p q)) * Ideal.logistic (blockGate v2 v5 v44 v46 v51 p q) := by
  unfold k0_pay2
  simp only [shapeCast_self]
  show Ideal.tanh (k0_pay1 v2 v5 v7 v19 v31 v33 v34 v39 (ix2 p q)) * Ideal.logistic ((matmul dot_S256x1024_S1024x1024_S256x1024_1_0_0_1_n_n none v2 v44 _ (ix2 p q)
    + matmul dot_S256x1024_S1024x1024_S256x1024_1_0_0_1_n_n none v5 v46 _ (ix2 p q)) + broadcastTo S256x1024 v51 _ (ix2 p q)) = _
  rw [product_apply, product_apply, bias_apply]
  rfl

/-! ## The two output blocks at an element -/

theorem zero_offsets : (![0, 0] : Fin 2 → Nat) = fun _ => 0 := funext fun a => by fin_cases a <;> rfl

/-- The upper 1024 rows of a weight matrix, as the body loads them. -/
theorem upper_rows (w : Vec Ideal S2048x1024 .bf16) (k q : Fin 1024) :
    (View.ld w r0_1 : S1024x1024.Idx → EReal) (ix2 k q) = w (ix2 (lo k) q) := by
  show w (r0_1.emb (ix2 k q)) = w (ix2 (lo k) q)
  refine congrArg w (funext fun a => Fin.ext ?_)
  match a with
  | ⟨0, _⟩ => show 0 + 1 * k.val = k.val; omega
  | ⟨1, _⟩ => show 0 + 1 * q.val = q.val; omega

/-- The lower 1024 rows. -/
theorem lower_rows (w : Vec Ideal S2048x1024 .bf16) (k q : Fin 1024) :
    (View.ld w r0_2 : S1024x1024.Idx → EReal) (ix2 k q) = w (ix2 (hi k) q) := by
  show w (r0_2.emb (ix2 k q)) = w (ix2 (hi k) q)
  refine congrArg w (funext fun a => Fin.ext ?_)
  match a with
  | ⟨0, _⟩ => show 1024 + 1 * k.val = 1024 + k.val; omega
  | ⟨1, _⟩ => show 0 + 1 * q.val = q.val; omega

/-- The gate for row `p` of the x and h blocks against a whole weight matrix and a bias row. -/
abbrev rowGate (xb hb : S256x1024.Idx → EReal) (w : S2048x1024.Idx → EReal) (β : S1x1024.Idx → EReal)
    (p : Fin 256) (q : Fin 1024) : EReal :=
  gate (fun k => xb (ix2 p k)) (fun k => hb (ix2 p k)) (fun k => w (ix2 (lo k) q)) (fun k => w (ix2 (hi k) q)) (β (ix2 (0 : Fin 1) q))

theorem blockGate_halves (xb hb : S256x1024.Idx → EReal) (w : Vec Ideal S2048x1024 .bf16) (β : S1x1024.Idx → EReal)
    (p : Fin 256) (q : Fin 1024) :
    blockGate xb hb (View.ld w r0_1) (View.ld w r0_2) β p q = rowGate xb hb w β p q := by
  have e1 : (fun k : Fin 1024 => (View.ld w r0_1 : S1024x1024.Idx → EReal) (ix2 k q)) = fun k => w (ix2 (lo k) q) :=
    funext fun k => upper_rows w k q
  have e2 : (fun k : Fin 1024 => (View.ld w r0_2 : S1024x1024.Idx → EReal) (ix2 k q)) = fun k => w (ix2 (hi k) q) :=
    funext fun k => lower_rows w k q
  show gate _ _ (fun k : Fin 1024 => (View.ld w r0_1 : S1024x1024.Idx → EReal) (ix2 k q))
    (fun k : Fin 1024 => (View.ld w r0_2 : S1024x1024.Idx → EReal) (ix2 k q)) _ = gate _ _ _ _ _
  rw [e1, e2]

section Blocks
variable (x0 x1 x2 : Vec Ideal S256x1024 .f32) (x3 x4 x5 x6 : Vec Ideal S2048x1024 .bf16) (x7 x8 x9 x10 : Vec Ideal S1x1024 .f32)
variable (p : Fin 256) (q : Fin 1024)

/-- The block the body leaves for the new cell state, at an element. -/
theorem cblock_apply :
    out0_12 x0 x1 x2 x3 x4 x5 x6 x7 x8 x9 x10 (ix2 p q)
      = cNew (rowGate x0 x1 x3 x7 p q) (rowGate x0 x1 x4 x8 p q) (rowGate x0 x1 x5 x9 p q) (x2 (ix2 p q)) := by
  unfold out0_12
  rw [View.canon_unit_zero zero_offsets]
  simp only [View.ld_unit_zero (S := S256x1024) zero_offsets, View.ld_unit_zero (S := S1x1024) zero_offsets]
  rw [cstate_apply, forget_apply, input_apply]
  unfold k0_pay3 k0_pay4 k0_pay5 k0_pay8
  simp only [shapeCast_self]
  rw [blockGate_halves, blockGate_halves, blockGate_halves]
  rfl

/-- The block the body leaves for the new hidden state, at an element. -/
theorem hblock_apply :
    out0_11 x0 x1 x2 x3 x4 x5 x6 x7 x8 x9 x10 (ix2 p q)
      = hNew (rowGate x0 x1 x3 x7 p q) (rowGate x0 x1 x4 x8 p q) (rowGate x0 x1 x5 x9 p q) (rowGate x0 x1 x6 x10 p q) (x2 (ix2 p q)) := by
  have hc := cblock_apply x0 x1 x2 x3 x4 x5 x6 x7 x8 x9 x10 p q
  unfold out0_12 at hc
  rw [View.canon_unit_zero zero_offsets] at hc
  unfold out0_11
  rw [View.canon_unit_zero zero_offsets, hstate_apply, hc]
  simp only [View.ld_unit_zero (S := S256x1024) zero_offsets, View.ld_unit_zero (S := S1x1024) zero_offsets]
  unfold k0_pay3 k0_pay4
  simp only [shapeCast_self]
  show Ideal.tanh _ * Ideal.logistic (blockGate x0 x1 (View.ld x6 r0_1) (View.ld x6 r0_2) x10 p q) = _
  rw [blockGate_halves]
  rfl

end Blocks

end Cert.KernelIdeal.Block

end
-- ==== Proof.CellFlat.lean ====
/-
  The cell over the flattened layout.

  The kernel works on x, h and c_in reshaped from [8, 512, 1024] to [4096, 1024] (row 512·b + t is row (b, t)), on
  the biases reshaped to 1×1024 rows, and hands its results back reshaped to [8, 512, 1024]. This module states the
  cell over that layout and shows that, under the reshapes' index correspondence, it is the cell of Cell.lean.
-/
import proofs.«141328_j30734785970219_1_alg».proof.Proof.Cell

noncomputable section

open scoped BigOperators

namespace Cert.Cell

open Idealize.ShloMosaic Idealize.ShloMosaic.ValueIdx

abbrev SXF : Shape := ⟨2, ![4096, 1024]⟩
abbrev SBR : Shape := ⟨2, ![1, 1024]⟩

/-- Row `(b, t)` of the three-axis layout is row `512·b + t` of the flattened one. -/
def flatRow (b : Fin 8) (t : Fin 512) : Fin 4096 := ⟨512 * b.val + t.val, by have := b.isLt; have := t.isLt; omega⟩

@[simp] theorem flatRow_val (b : Fin 8) (t : Fin 512) : (flatRow b t).val = 512 * b.val + t.val := rfl

/-- The gate for row `r` of the flattened x and h, a weight matrix, a bias row, column `q`. -/
def flatGate (xf hf : SXF.Idx → EReal) (w : SW.Idx → EReal) (β : SBR.Idx → EReal) (r : Fin 4096) (q : Fin 1024) : EReal :=
  gate (fun k => xf (ix2 r k)) (fun k => hf (ix2 r k)) (fun k => w (ix2 (lo k) q)) (fun k => w (ix2 (hi k) q)) (β (ix2 (0 : Fin 1) q))

/-- The new cell state over the flattened layout. -/
def flatC (xf hf cf : SXF.Idx → EReal) (wf : SW.Idx → EReal) (βf : SBR.Idx → EReal) (wi : SW.Idx → EReal) (βi : SBR.Idx → EReal)
    (wg : SW.Idx → EReal) (βg : SBR.Idx → EReal) : SXF.Idx → EReal := fun i =>
  cNew (flatGate xf hf wf βf (i 0) (i 1)) (flatGate xf hf wi βi (i 0) (i 1)) (flatGate xf hf wg βg (i 0) (i 1)) (cf i)

/-- The new hidden state over the flattened layout. -/
def flatH (xf hf cf : SXF.Idx → EReal) (wf : SW.Idx → EReal) (βf : SBR.Idx → EReal) (wi : SW.Idx → EReal) (βi : SBR.Idx → EReal)
    (wg : SW.Idx → EReal) (βg : SBR.Idx → EReal) (wo : SW.Idx → EReal) (βo : SBR.Idx → EReal) : SXF.Idx → EReal := fun i =>
  hNew (flatGate xf hf wf βf (i 0) (i 1)) (flatGate xf hf wi βi (i 0) (i 1)) (flatGate xf hf wg βg (i 0) (i 1))
    (flatGate xf hf wo βo (i 0) (i 1)) (cf i)

section Unflatten
variable (x h c : SX.Idx → EReal) (xf hf cf : SXF.Idx → EReal)
variable (hx : ∀ (b : Fin 8) (t : Fin 512) (k : Fin 1024), xf (ix2 (flatRow b t) k) = x (ix3 b t k))
variable (hh : ∀ (b : Fin 8) (t : Fin 512) (k : Fin 1024), hf (ix2 (flatRow b t) k) = h (ix3 b t k))
variable (hc : ∀ (b : Fin 8) (t : Fin 512) (k : Fin 1024), cf (ix2 (flatRow b t) k) = c (ix3 b t k))

include hx hh in
/-- A flattened gate, where the flattened x and h are the reshaped x and h and the bias row is the reshaped bias, is
    the gate. -/
theorem flatGate_eq (w : SW.Idx → EReal) (β : SBR.Idx → EReal) (bias : SB.Idx → EReal)
    (hβ : ∀ j : Fin 1024, β (ix2 (0 : Fin 1) j) = bias (ix1 j)) (b : Fin 8) (t : Fin 512) (j : Fin 1024) :
    flatGate xf hf w β (flatRow b t) j = gateOf x h w bias b t j := by
  unfold flatGate gateOf
  simp only [hx, hh, hβ]

variable (wf wi wg wo : SW.Idx → EReal) (βf βi βg βo : SBR.Idx → EReal) (bf bi bg bo : SB.Idx → EReal)
variable (hβf : ∀ j : Fin 1024, βf (ix2 (0 : Fin 1) j) = bf (ix1 j)) (hβi : ∀ j : Fin 1024, βi (ix2 (0 : Fin 1) j) = bi (ix1 j))
variable (hβg : ∀ j : Fin 1024, βg (ix2 (0 : Fin 1) j) = bg (ix1 j)) (hβo : ∀ j : Fin 1024, βo (ix2 (0 : Fin 1) j) = bo (ix1 j))

include hx hh hc hβf hβi hβg in
/-- The flattened new cell state at row `512·b + t` is the new cell state at `(b, t)`. -/
theorem flatC_eq (b : Fin 8) (t : Fin 512) (j : Fin 1024) :
    flatC xf hf cf wf βf wi βi wg βg (ix2 (flatRow b t) j) = cellC x h c wf bf wi bi wg bg (ix3 b t j) := by
  show cNew (flatGate xf hf wf βf (flatRow b t) j) (flatGate xf hf wi βi (flatRow b t) j) (flatGate xf hf wg βg (flatRow b t) j)
      (cf (ix2 (flatRow b t) j))
    = cNew (gateOf x h wf bf b t j) (gateOf x h wi bi b t j) (gateOf x h wg bg b t j) (c (ix3 b t j))
  rw [flatGate_eq x h xf hf hx hh wf βf bf hβf, flatGate_eq x h xf hf hx hh wi βi bi hβi,
    flatGate_eq x h xf hf hx hh wg βg bg hβg, hc]

include hx hh hc hβf hβi hβg hβo in
/-- The flattened new hidden state at row `512·b + t` is the new hidden state at `(b, t)`. -/
theorem flatH_eq (b : Fin 8) (t : Fin 512) (j : Fin 1024) :
    flatH xf hf cf wf βf wi βi wg βg wo βo (ix2 (flatRow b t) j) = cellH x h c wf bf wi bi wg bg wo bo (ix3 b t j) := by
  show hNew (flatGate xf hf wf βf (flatRow b t) j) (flatGate xf hf wi βi (flatRow b t) j) (flatGate xf hf wg βg (flatRow b t) j)
      (flatGate xf hf wo βo (flatRow b t) j) (cf (ix2 (flatRow b t) j))
    = hNew (gateOf x h wf bf b t j) (gateOf x h wi bi b t j) (gateOf x h wg bg b t j) (gateOf x h wo bo b t j) (c (ix3 b t j))
  rw [flatGate_eq x h xf hf hx hh wf βf bf hβf, flatGate_eq x h xf hf hx hh wi βi bi hβi,
    flatGate_eq x h xf hf hx hh wg βg bg hβg, flatGate_eq x h xf hf hx hh wo βo bo hβo, hc]

end Unflatten

end Cert.Cell

end
-- ==== Proof.KernelArrays.lean ====
/-
  From the body's blocks to the two flattened result arrays.

  The grid has 16 points; point t works on rows 256·t … 256·t + 255 of the flattened x, h and c_in, on the whole of each
  weight matrix and bias row, and writes rows 256·t … 256·t + 255 of the two flattened results. So element (r, q) of a
  result is the body's block element (r mod 256, q) at point r / 256, whose row of x and h is row r: the flattened cell
  of CellFlat.lean over the arrays as the region finds them.
-/
import proofs.«141328_j30734785970219_1_alg».proof.Proof.Gen.KernelIdeal.Frame
import proofs.«141328_j30734785970219_1_alg».proof.Proof.KernelBlock
import proofs.«141328_j30734785970219_1_alg».proof.Proof.CellFlat
import Idealize.ShloMosaic.Lib.Pipeline.Value
import Idealize.ShloMosaic.Lib.ValueIdx

noncomputable section

open scoped BigOperators

namespace Cert.KernelIdeal.Arrays

open Cert.KernelIdeal Cert.KernelIdeal.Gen Cert.KernelIdeal.Block Idealize.ShloMosaic Idealize.ShloMosaic.TcCoe Idealize.SL.Sem
open Idealize.ShloMosaic.ValueIdx
open Idealize.ShloMosaic.Pipeline (Dat)
open Cert.Cell

variable (m : (ℓ : Loc nD τ sig) → Buf (Elt Ideal) ℓ) (ρ : Dev nD → PrngReg)

/-! ## The arrays as the region finds them, and a point's blocks of them -/

abbrev xflat (c : Dev nD) : S4096x1024.Idx → EReal := V m c main_v0
abbrev hflat (c : Dev nD) : S4096x1024.Idx → EReal := V m c main_v1
abbrev cflat (c : Dev nD) : S4096x1024.Idx → EReal := V m c main_v2
abbrev wfA (c : Dev nD) : S2048x1024.Idx → EReal := V m c main_v3
abbrev wiA (c : Dev nD) : S2048x1024.Idx → EReal := V m c main_v4
abbrev wgA (c : Dev nD) : S2048x1024.Idx → EReal := V m c main_v5
abbrev woA (c : Dev nD) : S2048x1024.Idx → EReal := V m c main_v6
abbrev bfR (c : Dev nD) : S1x1024.Idx → EReal := V m c main_v7
abbrev biR (c : Dev nD) : S1x1024.Idx → EReal := V m c main_v8
abbrev bgR (c : Dev nD) : S1x1024.Idx → EReal := V m c main_v9
abbrev boR (c : Dev nD) : S1x1024.Idx → EReal := V m c main_v10

abbrev xblk (c : Dev nD) (t : Fin cfg0.N) : Vec Ideal S256x1024 .f32 := iblk m c 0 t
abbrev hblk (c : Dev nD) (t : Fin cfg0.N) : Vec Ideal S256x1024 .f32 := iblk m c 1 t
abbrev cblk (c : Dev nD) (t : Fin cfg0.N) : Vec Ideal S256x1024 .f32 := iblk m c 2 t
abbrev wfblk (c : Dev nD) (t : Fin cfg0.N) : Vec Ideal S2048x1024 .bf16 := iblk m c 3 t
abbrev wiblk (c : Dev nD) (t : Fin cfg0.N) : Vec Ideal S2048x1024 .bf16 := iblk m c 4 t
abbrev wgblk (c : Dev nD) (t : Fin cfg0.N) : Vec Ideal S2048x1024 .bf16 := iblk m c 5 t
abbrev woblk (c : Dev nD) (t : Fin cfg0.N) : Vec Ideal S2048x1024 .bf16 := iblk m c 6 t
abbrev bfblk (c : Dev nD) (t : Fin cfg0.N) : Vec Ideal S1x1024 .f32 := iblk m c 7 t
abbrev biblk (c : Dev nD) (t : Fin cfg0.N) : Vec Ideal S1x1024 .f32 := iblk m c 8 t
abbrev bgblk (c : Dev nD) (t : Fin cfg0.N) : Vec Ideal S1x1024 .f32 := iblk m c 9 t
abbrev boblk (c : Dev nD) (t : Fin cfg0.N) : Vec Ideal S1x1024 .f32 := iblk m c 10 t

/-- The row windows move with the point along the rows and stay at column block 0. -/
theorem row_windows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weight and bias windows stay at block (0, 0): each point sees the whole array. -/
theorem whole_windows : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row `p` of point `t`'s x block is row `256·t + p` of the flattened x. -/
theorem xblk_apply (c : Dev nD) (t : Fin cfg0.N) (p : Fin 256) (r : Fin 4096) (hr : r.val = 256 * t.val + p.val) (q : Fin 1024) :
    xblk m c t (ix2 p q) = xflat m c (ix2 r q) := by
  obtain ⟨e0, e1, -⟩ := row_windows t
  unfold xblk iblk
  rw [View.read_apply]
  show V m c main_v0 _ = V m c main_v0 _
  congr 1
  funext a
  apply Fin.ext
  match a with
  | ⟨0, _⟩ => show win0_0.index t 0 * 256 + 1 * p.val = r.val; rw [e0, hr]; omega
  | ⟨1, _⟩ => show win0_0.index t 1 * 1024 + 1 * q.val = q.val; rw [e1]; omega

/-- Row `p` of point `t`'s h block is row `256·t + p` of the flattened h. -/
theorem hblk_apply (c : Dev nD) (t : Fin cfg0.N) (p : Fin 256) (r : Fin 4096) (hr : r.val = 256 * t.val + p.val) (q : Fin 1024) :
    hblk m c t (ix2 p q) = hflat m c (ix2 r q) := by
  have hw := row_windows t
  unfold hblk iblk
  rw [View.read_apply]
  show V m c main_v1 _ = V m c main_v1 _
  congr 1
  funext a
  apply Fin.ext
  match a with
  | ⟨0, _⟩ => show win0_1.index t 0 * 256 + 1 * p.val = r.val; rw [hw.2.2.1, hr]; omega
  | ⟨1, _⟩ => show win0_1.index t 1 * 1024 + 1 * q.val = q.val; rw [hw.2.2.2.1]; omega

/-- Row `p` of point `t`'s old-state block is row `256·t + p` of the flattened old state. -/
theorem cblk_apply (c : Dev nD) (t : Fin cfg0.N) (p : Fin 256) (r : Fin 4096) (hr : r.val = 256 * t.val + p.val) (q : Fin 1024) :
    cblk m c t (ix2 p q) = cflat m c (ix2 r q) := by
  have hw := row_windows t
  unfold cblk iblk
  rw [View.read_apply]
  show V m c main_v2 _ = V m c main_v2 _
  congr 1
  funext a
  apply Fin.ext
  match a with
  | ⟨0, _⟩ => show win0_2.index t 0 * 256 + 1 * p.val = r.val; rw [hw.2.2.2.2.1, hr]; omega
  | ⟨1, _⟩ => show win0_2.index t 1 * 1024 + 1 * q.val = q.val; rw [hw.2.2.2.2.2.1]; omega

/-- Every point sees the whole forget weight matrix. -/
theorem wfblk_eq (c : Dev nD) (t : Fin cfg0.N) : wfblk m c t = wfA m c := by
  have hw := whole_windows t
  unfold wfblk iblk
  funext y
  rw [View.read_apply]
  show V m c main_v3 _ = V m c main_v3 y
  congr 1
  funext a
  apply Fin.ext
  match a with
  | ⟨0, _⟩ => show win0_3.index t 0 * 2048 + 1 * (y 0).val = (y 0).val; rw [hw.1]; omega
  | ⟨1, _⟩ => show win0_3.index t 1 * 1024 + 1 * (y 1).val = (y 1).val; rw [hw.2.1]; omega

/-- Every point sees the whole input weight matrix. -/
theorem wiblk_eq (c : Dev nD) (t : Fin cfg0.N) : wiblk m c t = wiA m c := by
  have hw := whole_windows t
  unfold wiblk iblk
  funext y
  rw [View.read_apply]
  show V m c main_v4 _ = V m c main_v4 y
  congr 1
  funext a
  apply Fin.ext
  match a with
  | ⟨0, _⟩ => show win0_4.index t 0 * 2048 + 1 * (y 0).val = (y 0).val; rw [hw.2.2.1]; omega
  | ⟨1, _⟩ => show win0_4.index t 1 * 1024 + 1 * (y 1).val = (y 1).val; rw [hw.2.2.2.1]; omega

/-- Every point sees the whole candidate weight matrix. -/
theorem wgblk_eq (c : Dev nD) (t : Fin cfg0.N) : wgblk m c t = wgA m c := by
  have hw := whole_windows t
  unfold wgblk iblk
  funext y
  rw [View.read_apply]
  show V m c main_v5 _ = V m c main_v5 y
  congr 1
  funext a
  apply Fin.ext
  match a with
  | ⟨0, _⟩ => show win0_5.index t 0 * 2048 + 1 * (y 0).val = (y 0).val; rw [hw.2.2.2.2.1]; omega
  | ⟨1, _⟩ => show win0_5.index t 1 * 1024 + 1 * (y 1).val = (y 1).val; rw [hw.2.2.2.2.2.1]; omega

/-- Every point sees the whole output weight matrix. -/
theorem woblk_eq (c : Dev nD) (t : Fin cfg0.N) : woblk m c t = woA m c := by
  have hw := whole_windows t
  unfold woblk iblk
  funext y
  rw [View.read_apply]
  show V m c main_v6 _ = V m c main_v6 y
  congr 1
  funext a
  apply Fin.ext
  match a with
  | ⟨0, _⟩ => show win0_6.index t 0 * 2048 + 1 * (y 0).val = (y 0).val; rw [hw.2.2.2.2.2.2.1]; omega
  | ⟨1, _⟩ => show win0_6.index t 1 * 1024 + 1 * (y 1).val = (y 1).val; rw [hw.2.2.2.2.2.2.2.1]; omega

/-- Every point sees the whole forget bias row. -/
theorem bfblk_eq (c : Dev nD) (t : Fin cfg0.N) : bfblk m c t = bfR m c := by
  have hw := whole_windows t
  unfold bfblk iblk
  funext y
  rw [View.read_apply]
  show V m c main_v7 _ = V m c main_v7 y
  congr 1
  funext a
  apply Fin.ext
  match a with
  | ⟨0, _⟩ => show win0_7.index t 0 * 1 + 1 * (y 0).val = (y 0).val; rw [hw.2.2.2.2.2.2.2.2.1]; omega
  | ⟨1, _⟩ => show win0_7.index t 1 * 1024 + 1 * (y 1).val = (y 1).val; rw [hw.2.2.2.2.2.2.2.2.2.1]; omega

/-- Every point sees the whole input bias row. -/
theorem biblk_eq (c : Dev nD) (t : Fin cfg0.N) : biblk m c t = biR m c := by
  have hw := whole_windows t
  unfold biblk iblk
  funext y
  rw [View.read_apply]
  show V m c main_v8 _ = V m c main_v8 y
  congr 1
  funext a
  apply Fin.ext
  match a with
  | ⟨0, _⟩ => show win0_8.index t 0 * 1 + 1 * (y 0).val = (y 0).val; rw [hw.2.2.2.2.2.2.2.2.2.2.1]; omega
  | ⟨1, _⟩ => show win0_8.index t 1 * 1024 + 1 * (y 1).val = (y 1).val; rw [hw.2.2.2.2.2.2.2.2.2.2.2.1]; omega

/-- Every point sees the whole candidate bias row. -/
theorem bgblk_eq (c : Dev nD) (t : Fin cfg0.N) : bgblk m c t = bgR m c := by
  have hw := whole_windows t
  unfold bgblk iblk
  funext y
  rw [View.read_apply]
  show V m c main_v9 _ = V m c main_v9 y
  congr 1
  funext a
  apply Fin.ext
  match a with
  | ⟨0, _⟩ => show win0_9.index t 0 * 1 + 1 * (y 0).val = (y 0).val; rw [hw.2.2.2.2.2.2.2.2.2.2.2.2.1]; omega
  | ⟨1, _⟩ => show win0_9.index t 1 * 1024 + 1 * (y 1).val = (y 1).val; rw [hw.2.2.2.2.2.2.2.2.2.2.2.2.2.1]; omega

/-- Every point sees the whole output bias row. -/
theorem boblk_eq (c : Dev nD) (t : Fin cfg0.N) : boblk m c t = boR m c := by
  have hw := whole_windows t
  unfold boblk iblk
  funext y
  rw [View.read_apply]
  show V m c main_v10 _ = V m c main_v10 y
  congr 1
  funext a
  apply Fin.ext
  match a with
  | ⟨0, _⟩ => show win0_10.index t 0 * 1 + 1 * (y 0).val = (y 0).val; rw [hw.2.2.2.2.2.2.2.2.2.2.2.2.2.2.1]; omega
  | ⟨1, _⟩ => show win0_10.index t 1 * 1024 + 1 * (y 1).val = (y 1).val; rw [hw.2.2.2.2.2.2.2.2.2.2.2.2.2.2.2]; omega

/-! ## What a point writes back -/

section Point
variable (c : Dev nD) (t : Fin cfg0.N) (p : Fin 256) (r : Fin 4096) (hr : r.val = 256 * t.val + p.val) (q : Fin 1024)

include hr in
/-- A gate read off point `t`'s blocks at row `p` is the flattened gate at row `256·t + p`. -/
theorem rowGate_flat (w : S2048x1024.Idx → EReal) (β : S1x1024.Idx → EReal) :
    rowGate (xblk m c t) (hblk m c t) w β p q = flatGate (xflat m c) (hflat m c) w β r q := by
  unfold rowGate flatGate
  simp only [xblk_apply m c t p r hr, hblk_apply m c t p r hr]

include hr in
/-- Element (p, q) of the new-cell-state block point `t` leaves is element (256·t + p, q) of the flattened cell. -/
theorem cstate_point :
    out0_12 (xblk m c t) (hblk m c t) (cblk m c t) (wfblk m c t) (wiblk m c t) (wgblk m c t) (woblk m c t)
        (bfblk m c t) (biblk m c t) (bgblk m c t) (boblk m c t) (ix2 p q)
      = flatC (xflat m c) (hflat m c) (cflat m c) (wfA m c) (bfR m c) (wiA m c) (biR m c) (wgA m c) (bgR m c) (ix2 r q) := by
  refine (cblock_apply (xblk m c t) (hblk m c t) (cblk m c t) (wfblk m c t) (wiblk m c t) (wgblk m c t) (woblk m c t)
    (bfblk m c t) (biblk m c t) (bgblk m c t) (boblk m c t) p q).trans ?_
  rw [wfblk_eq, wiblk_eq, wgblk_eq, bfblk_eq, biblk_eq, bgblk_eq,
    rowGate_flat m c t p r hr q, rowGate_flat m c t p r hr q, rowGate_flat m c t p r hr q, cblk_apply m c t p r hr q]
  rfl

include hr in
/-- Element (p, q) of the new-hidden-state block point `t` leaves is element (256·t + p, q) of the flattened cell. -/
theorem hstate_point :
    out0_11 (xblk m c t) (hblk m c t) (cblk m c t) (wfblk m c t) (wiblk m c t) (wgblk m c t) (woblk m c t)
        (bfblk m c t) (biblk m c t) (bgblk m c t) (boblk m c t) (ix2 p q)
      = flatH (xflat m c) (hflat m c) (cflat m c) (wfA m c) (bfR m c) (wiA m c) (biR m c) (wgA m c) (bgR m c) (woA m c) (boR m c) (ix2 r q) := by
  refine (hblock_apply (xblk m c t) (hblk m c t) (cblk m c t) (wfblk m c t) (wiblk m c t) (wgblk m c t) (woblk m c t)
    (bfblk m c t) (biblk m c t) (bgblk m c t) (boblk m c t) p q).trans ?_
  rw [wfblk_eq, wiblk_eq, wgblk_eq, woblk_eq, bfblk_eq, biblk_eq, bgblk_eq, boblk_eq,
    rowGate_flat m c t p r hr q, rowGate_flat m c t p r hr q, rowGate_flat m c t p r hr q, rowGate_flat m c t p r hr q,
    cblk_apply m c t p r hr q]
  rfl

end Point

/-! ## The two flattened results after the run -/

/-- What point `t` writes back to the flattened new cell state is block `t` of the flattened cell. -/
theorem flushedC_eq (c : Dev nD) (t : Fin cfg0.N) :
    (dats m 0 c).flushed 12 t = ((cfg0.win 12).blk t).view.read (Elt Ideal) (flatC (xflat m c) (hflat m c) (cflat m c) (wfA m c) (bfR m c) (wiA m c) (biR m c) (wgA m c) (bgR m c)) := by
  show (cfg0.win 12).cut (grid0.coords t) ((dats m 0 c).after 12 t) = _
  rw [after0_12]
  funext j
  have hw := row_windows t
  have hN : cfg0.N = 16 := N_0
  have hj0 : (j 0).val < 256 := (j 0).isLt
  have hj1 : (j 1).val < 1024 := (j 1).isLt
  have ht : t.val < 16 := hN ▸ t.isLt
  have ej : j = ix2 (⟨(j 0).val, hj0⟩ : Fin 256) (⟨(j 1).val, hj1⟩ : Fin 1024) :=
    funext fun a => by match a with | ⟨0, _⟩ => rfl | ⟨1, _⟩ => rfl
  show out0_12 (xblk m c t) (hblk m c t) (cblk m c t) (wfblk m c t) (wiblk m c t) (wgblk m c t) (woblk m c t)
      (bfblk m c t) (biblk m c t) (bgblk m c t) (boblk m c t) j
    = (flatC (xflat m c) (hflat m c) (cflat m c) (wfA m c) (bfR m c) (wiA m c) (biR m c) (wgA m c) (bgR m c)) (((cfg0.win 12).blk t).view.emb j)
  refine (congrArg (out0_12 (xblk m c t) (hblk m c t) (cblk m c t) (wfblk m c t) (wiblk m c t) (wgblk m c t) (woblk m c t)
      (bfblk m c t) (biblk m c t) (bgblk m c t) (boblk m c t)) ej).trans ?_
  refine (cstate_point m c t ⟨(j 0).val, hj0⟩ ⟨256 * t.val + (j 0).val, by omega⟩ rfl ⟨(j 1).val, hj1⟩).trans ?_
  refine congrArg (flatC (xflat m c) (hflat m c) (cflat m c) (wfA m c) (bfR m c) (wiA m c) (biR m c) (wgA m c) (bgR m c)) (funext fun a => Fin.ext ?_)
  match a with
  | ⟨0, _⟩ => show 256 * t.val + (j 0).val = win0_12.index t 0 * 256 + 1 * (j 0).val; rw [hw.2.2.2.2.2.2.2.2.1]; omega
  | ⟨1, _⟩ => show (j 1).val = win0_12.index t 1 * 1024 + 1 * (j 1).val; rw [hw.2.2.2.2.2.2.2.2.2]; omega

/-- An index of the flattened result lies in point `t`'s block iff each coordinate lies in the block's range. -/
theorem mem_blkC (t : Fin cfg0.N) (i : S4096x1024.Idx) :
    i ∈ ((cfg0.win 12).blk t).view.set ↔ ∀ a : Fin 2, win0_12.index t a * S256x1024.size a ≤ (i a).val
      ∧ (i a).val < win0_12.index t a * S256x1024.size a + S256x1024.size a := by
  show i ∈ ((View.whole main_v11_1).slice (win0_12.rect t)).set ↔ _
  rw [View.set_slice_whole, Rect.mem_set_unit]
  exact Iff.rfl

/-- Row `r` is written by point `r / 256`: the sixteen blocks cover the array. -/
theorem coverC (i : S4096x1024.Idx) :
    ∃ t : Fin cfg0.N, (cfg0.win 12).flush t = true ∧ i ∈ ((cfg0.win 12).blk t).view.set := by
  have hN : cfg0.N = 16 := N_0
  have hi0 : (i 0).val < 4096 := (i 0).isLt
  have hi1 : (i 1).val < 1024 := (i 1).isLt
  have hlt : (i 0).val / 256 < cfg0.N := by rw [hN]; omega
  have hw := row_windows ⟨(i 0).val / 256, hlt⟩
  refine ⟨⟨(i 0).val / 256, hlt⟩, flush0_12 _, ?_⟩
  rw [mem_blkC]
  intro a
  match a with
  | ⟨0, _⟩ =>
    show win0_12.index ⟨(i 0).val / 256, hlt⟩ 0 * 256 ≤ (i 0).val ∧ (i 0).val < win0_12.index ⟨(i 0).val / 256, hlt⟩ 0 * 256 + 256
    rw [hw.2.2.2.2.2.2.2.2.1]
    show (i 0).val / 256 * 256 ≤ (i 0).val ∧ (i 0).val < (i 0).val / 256 * 256 + 256
    omega
  | ⟨1, _⟩ =>
    show win0_12.index ⟨(i 0).val / 256, hlt⟩ 1 * 1024 ≤ (i 1).val ∧ (i 1).val < win0_12.index ⟨(i 0).val / 256, hlt⟩ 1 * 1024 + 1024
    rw [hw.2.2.2.2.2.2.2.2.2]
    omega

/-- The flattened new cell state after the run is the flattened cell of the arrays as the region finds them. -/
theorem finalC (c : Dev nD) : (dats m 0 c).arrAt 12 cfg0.N = flatC (xflat m c) (hflat m c) (cflat m c) (wfA m c) (bfR m c) (wiA m c) (biR m c) (wgA m c) (bgR m c) :=
  (dats m 0 c).arrAt_eq_of_cover 12 _ (fun t _ => flushedC_eq m c t) (coverC)

/-- What point `t` writes back to the flattened new hidden state is block `t` of the flattened cell. -/
theorem flushedH_eq (c : Dev nD) (t : Fin cfg0.N) :
    (dats m 0 c).flushed 11 t = ((cfg0.win 11).blk t).view.read (Elt Ideal) (flatH (xflat m c) (hflat m c) (cflat m c) (wfA m c) (bfR m c) (wiA m c) (biR m c) (wgA m c) (bgR m c) (woA m c) (boR m c)) := by
  show (cfg0.win 11).cut (grid0.coords t) ((dats m 0 c).after 11 t) = _
  rw [after0_11]
  funext j
  have hw := row_windows t
  have hN : cfg0.N = 16 := N_0
  have hj0 : (j 0).val < 256 := (j 0).isLt
  have hj1 : (j 1).val < 1024 := (j 1).isLt
  have ht : t.val < 16 := hN ▸ t.isLt
  have ej : j = ix2 (⟨(j 0).val, hj0⟩ : Fin 256) (⟨(j 1).val, hj1⟩ : Fin 1024) :=
    funext fun a => by match a with | ⟨0, _⟩ => rfl | ⟨1, _⟩ => rfl
  show out0_11 (xblk m c t) (hblk m c t) (cblk m c t) (wfblk m c t) (wiblk m c t) (wgblk m c t) (woblk m c t)
      (bfblk m c t) (biblk m c t) (bgblk m c t) (boblk m c t) j
    = (flatH (xflat m c) (hflat m c) (cflat m c) (wfA m c) (bfR m c) (wiA m c) (biR m c) (wgA m c) (bgR m c) (woA m c) (boR m c)) (((cfg0.win 11).blk t).view.emb j)
  refine (congrArg (out0_11 (xblk m c t) (hblk m c t) (cblk m c t) (wfblk m c t) (wiblk m c t) (wgblk m c t) (woblk m c t)
      (bfblk m c t) (biblk m c t) (bgblk m c t) (boblk m c t)) ej).trans ?_
  refine (hstate_point m c t ⟨(j 0).val, hj0⟩ ⟨256 * t.val + (j 0).val, by omega⟩ rfl ⟨(j 1).val, hj1⟩).trans ?_
  refine congrArg (flatH (xflat m c) (hflat m c) (cflat m c) (wfA m c) (bfR m c) (wiA m c) (biR m c) (wgA m c) (bgR m c) (woA m c) (boR m c)) (funext fun a => Fin.ext ?_)
  match a with
  | ⟨0, _⟩ => show 256 * t.val + (j 0).val = win0_11.index t 0 * 256 + 1 * (j 0).val; rw [hw.2.2.2.2.2.2.1]; omega
  | ⟨1, _⟩ => show (j 1).val = win0_11.index t 1 * 1024 + 1 * (j 1).val; rw [hw.2.2.2.2.2.2.2.1]; omega

/-- An index of the flattened result lies in point `t`'s block iff each coordinate lies in the block's range. -/
theorem mem_blkH (t : Fin cfg0.N) (i : S4096x1024.Idx) :
    i ∈ ((cfg0.win 11).blk t).view.set ↔ ∀ a : Fin 2, win0_11.index t a * S256x1024.size a ≤ (i a).val
      ∧ (i a).val < win0_11.index t a * S256x1024.size a + S256x1024.size a := by
  show i ∈ ((View.whole main_v11_0).slice (win0_11.rect t)).set ↔ _
  rw [View.set_slice_whole, Rect.mem_set_unit]
  exact Iff.rfl

/-- Row `r` is written by point `r / 256`: the sixteen blocks cover the array. -/
theorem coverH (i : S4096x1024.Idx) :
    ∃ t : Fin cfg0.N, (cfg0.win 11).flush t = true ∧ i ∈ ((cfg0.win 11).blk t).view.set := by
  have hN : cfg0.N = 16 := N_0
  have hi0 : (i 0).val < 4096 := (i 0).isLt
  have hi1 : (i 1).val < 1024 := (i 1).isLt
  have hlt : (i 0).val / 256 < cfg0.N := by rw [hN]; omega
  have hw := row_windows ⟨(i 0).val / 256, hlt⟩
  refine ⟨⟨(i 0).val / 256, hlt⟩, flush0_11 _, ?_⟩
  rw [mem_blkH]
  intro a
  match a with
  | ⟨0, _⟩ =>
    show win0_11.index ⟨(i 0).val / 256, hlt⟩ 0 * 256 ≤ (i 0).val ∧ (i 0).val < win0_11.index ⟨(i 0).val / 256, hlt⟩ 0 * 256 + 256
    rw [hw.2.2.2.2.2.2.1]
    show (i 0).val / 256 * 256 ≤ (i 0).val ∧ (i 0).val < (i 0).val / 256 * 256 + 256
    omega
  | ⟨1, _⟩ =>
    show win0_11.index ⟨(i 0).val / 256, hlt⟩ 1 * 1024 ≤ (i 1).val ∧ (i 1).val < win0_11.index ⟨(i 0).val / 256, hlt⟩ 1 * 1024 + 1024
    rw [hw.2.2.2.2.2.2.2.1]
    omega

/-- The flattened new hidden state after the run is the flattened cell of the arrays as the region finds them. -/
theorem finalH (c : Dev nD) : (dats m 0 c).arrAt 11 cfg0.N = flatH (xflat m c) (hflat m c) (cflat m c) (wfA m c) (bfR m c) (wiA m c) (biR m c) (wgA m c) (bgR m c) (woA m c) (boR m c) :=
  (dats m 0 c).arrAt_eq_of_cover 11 _ (fun t _ => flushedH_eq m c t) (coverH)

end Cert.KernelIdeal.Arrays

end
-- ==== Proof.KernelResult.lean ====
/-
  The kernel program's two results as functions of its arguments.

  Around the pallas_call the program only re-lays arrays out: x, h and c_in are reshaped to 4096 rows, the weights change
  float format (the identity on the extended reals), the biases become 1×1024 rows, and the two flattened results are
  reshaped back to [8, 512, 1024]. A reshape keeps the row-major position, so row (b, t) is flattened row 512·b + t and
  the flattened cell of the re-laid arrays, read back, is the cell of the arguments.
-/
import proofs.«141328_j30734785970219_1_alg».proof.Proof.Gen.KernelIdeal.Frame
import proofs.«141328_j30734785970219_1_alg».proof.Proof.KernelArrays
import proofs.«141328_j30734785970219_1_alg».proof.Proof.CellFlat
import Idealize.ShloMosaic.Lib.Pipeline.Value
import Idealize.ShloMosaic.Lib.ValueIdx
import Idealize.ShloMosaic.Lib.StableHlo.Run

noncomputable section

namespace Cert.KernelIdeal.Result

open Cert.KernelIdeal Cert.KernelIdeal.Gen Cert.KernelIdeal.Arrays Idealize.ShloMosaic Idealize.ShloMosaic.TcCoe Idealize.SL.Sem
open Idealize.ShloMosaic.ValueIdx Idealize.ShloMosaic.StableHlo
open Idealize.ShloMosaic.Pipeline (Dat)
open Cert.Cell

variable (m : (ℓ : Loc nD τ sig) → Buf (Elt Ideal) ℓ) (ρ : Dev nD → PrngReg)

/-! ## Reshapes read at an index -/

/-- Flattening [8, 512, 1024] to [4096, 1024]: flattened row 512·b + t is row (b, t). -/
theorem flatten_apply (A : S8x512x1024.Idx → EReal) (b : Fin 8) (t : Fin 512) (k : Fin 1024) :
    shapeCast S4096x1024 A shapeCasts_S8x512x1024_S4096x1024 (ix2 (flatRow b t) k) = A (ix3 b t k) := by
  refine shapeCast_apply A shapeCasts_S8x512x1024_S4096x1024 (ix2 (flatRow b t) k) (ix3 b t k) ?_
  rw [Shape.rowMajor_val_three, Shape.rowMajor_val_two]
  show (b.val * 512 + t.val) * 1024 + k.val = (512 * b.val + t.val) * 1024 + k.val
  omega

/-- Back from [4096, 1024] to [8, 512, 1024]. -/
theorem unflatten_apply (A : S4096x1024.Idx → EReal) (b : Fin 8) (t : Fin 512) (j : Fin 1024) :
    shapeCast S8x512x1024 A shapeCasts_S4096x1024_S8x512x1024 (ix3 b t j) = A (ix2 (flatRow b t) j) := by
  refine shapeCast_apply A shapeCasts_S4096x1024_S8x512x1024 (ix3 b t j) (ix2 (flatRow b t) j) ?_
  rw [Shape.rowMajor_val_three, Shape.rowMajor_val_two]
  show (512 * b.val + t.val) * 1024 + j.val = (b.val * 512 + t.val) * 1024 + j.val
  omega

/-- A bias as a 1×1024 row. -/
theorem biasrow_apply (β : S1024.Idx → EReal) (j : Fin 1024) :
    shapeCast S1x1024 β shapeCasts_S1024_S1x1024 (ix2 (0 : Fin 1) j) = β (ix1 j) := by
  refine shapeCast_apply β shapeCasts_S1024_S1x1024 (ix2 (0 : Fin 1) j) (ix1 j) ?_
  rw [Shape.rowMajor_val_one, Shape.rowMajor_val_two]
  show j.val = 0 * 1024 + j.val
  omega

/-! ## The arrays the region finds, from the arguments -/

abbrev argX (c : Dev nD) : S8x512x1024.Idx → EReal := m ((c.tc : Thread nD τ).loc main_arg0)
abbrev argH (c : Dev nD) : S8x512x1024.Idx → EReal := m ((c.tc : Thread nD τ).loc main_arg1)
abbrev argC (c : Dev nD) : S8x512x1024.Idx → EReal := m ((c.tc : Thread nD τ).loc main_arg2)
abbrev argWf (c : Dev nD) : S2048x1024.Idx → EReal := m ((c.tc : Thread nD τ).loc main_arg3)
abbrev argBf (c : Dev nD) : S1024.Idx → EReal := m ((c.tc : Thread nD τ).loc main_arg4)
abbrev argWi (c : Dev nD) : S2048x1024.Idx → EReal := m ((c.tc : Thread nD τ).loc main_arg5)
abbrev argBi (c : Dev nD) : S1024.Idx → EReal := m ((c.tc : Thread nD τ).loc main_arg6)
abbrev argWg (c : Dev nD) : S2048x1024.Idx → EReal := m ((c.tc : Thread nD τ).loc main_arg7)
abbrev argBg (c : Dev nD) : S1024.Idx → EReal := m ((c.tc : Thread nD τ).loc main_arg8)
abbrev argWo (c : Dev nD) : S2048x1024.Idx → EReal := m ((c.tc : Thread nD τ).loc main_arg9)
abbrev argBo (c : Dev nD) : S1024.Idx → EReal := m ((c.tc : Thread nD τ).loc main_arg10)

theorem xflat_eq (c : Dev nD) : xflat m c = shapeCast S4096x1024 (argX m c) shapeCasts_S8x512x1024_S4096x1024 := by
  show StableHlo.after hostOps0 (fun b => m (c, b)) (Proc.devRef .tc main_v0) = _
  after_results
  rfl
theorem hflat_eq (c : Dev nD) : hflat m c = shapeCast S4096x1024 (argH m c) shapeCasts_S8x512x1024_S4096x1024 := by
  show StableHlo.after hostOps0 (fun b => m (c, b)) (Proc.devRef .tc main_v1) = _
  after_results
  rfl
theorem cflat_eq (c : Dev nD) : cflat m c = shapeCast S4096x1024 (argC m c) shapeCasts_S8x512x1024_S4096x1024 := by
  show StableHlo.after hostOps0 (fun b => m (c, b)) (Proc.devRef .tc main_v2) = _
  after_results
  rfl
/-- The change of float format is the identity on the extended reals. -/
theorem wfA_eq (c : Dev nD) : wfA m c = argWf m c := by
  show StableHlo.after hostOps0 (fun b => m (c, b)) (Proc.devRef .tc main_v3) = _
  after_results
  rfl
theorem wiA_eq (c : Dev nD) : wiA m c = argWi m c := by
  show StableHlo.after hostOps0 (fun b => m (c, b)) (Proc.devRef .tc main_v4) = _
  after_results
  rfl
theorem wgA_eq (c : Dev nD) : wgA m c = argWg m c := by
  show StableHlo.after hostOps0 (fun b => m (c, b)) (Proc.devRef .tc main_v5) = _
  after_results
  rfl
theorem woA_eq (c : Dev nD) : woA m c = argWo m c := by
  show StableHlo.after hostOps0 (fun b => m (c, b)) (Proc.devRef .tc main_v6) = _
  after_results
  rfl
theorem bfR_eq (c : Dev nD) : bfR m c = shapeCast S1x1024 (argBf m c) shapeCasts_S1024_S1x1024 := by
  show StableHlo.after hostOps0 (fun b => m (c, b)) (Proc.devRef .tc main_v7) = _
  after_results
  rfl
theorem biR_eq (c : Dev nD) : biR m c = shapeCast S1x1024 (argBi m c) shapeCasts_S1024_S1x1024 := by
  show StableHlo.after hostOps0 (fun b => m (c, b)) (Proc.devRef .tc main_v8) = _
  after_results
  rfl
theorem bgR_eq (c : Dev nD) : bgR m c = shapeCast S1x1024 (argBg m c) shapeCasts_S1024_S1x1024 := by
  show StableHlo.after hostOps0 (fun b => m (c, b)) (Proc.devRef .tc main_v9) = _
  after_results
  rfl
theorem boR_eq (c : Dev nD) : boR m c = shapeCast S1x1024 (argBo m c) shapeCasts_S1024_S1x1024 := by
  show StableHlo.after hostOps0 (fun b => m (c, b)) (Proc.devRef .tc main_v10) = _
  after_results
  rfl

/-! ## The two results after the reshapes back -/

/-- The first result is the flattened new hidden state reshaped. -/
theorem tail_h (c : Dev nD) : Pipeline.afterTail₀ cfgs (dats m) 0 (V0 m) [hostOps1] c main_v12
    = shapeCast S8x512x1024 ((dats m 0 c).arrAt 11 cfg0.N) shapeCasts_S4096x1024_S8x512x1024 := by
  have e : Pipeline.withArrays (cfgs 0).spec c (V0 m c) (fun w => (dats m 0 c).arrAt w (cfgs 0).N) (Proc.devRef .tc main_v11_0)
      = (dats m 0 c).arrAt 11 cfg0.N :=
    Pipeline.withArrays_arr spec0 launch0.win.arr_inj c (V0 m c) (fun w => (dats m 0 c).arrAt w cfg0.N) 11
  unfold Pipeline.afterTail₀
  show StableHlo.after hostOps1 _ (Proc.devRef .tc main_v12) = _
  after_results
  rw [e]
  rfl

/-- The second result is the flattened new cell state reshaped. -/
theorem tail_c (c : Dev nD) : Pipeline.afterTail₀ cfgs (dats m) 0 (V0 m) [hostOps1] c main_v13
    = shapeCast S8x512x1024 ((dats m 0 c).arrAt 12 cfg0.N) shapeCasts_S4096x1024_S8x512x1024 := by
  have e : Pipeline.withArrays (cfgs 0).spec c (V0 m c) (fun w => (dats m 0 c).arrAt w (cfgs 0).N) (Proc.devRef .tc main_v11_1)
      = (dats m 0 c).arrAt 12 cfg0.N :=
    Pipeline.withArrays_arr spec0 launch0.win.arr_inj c (V0 m c) (fun w => (dats m 0 c).arrAt w cfg0.N) 12
  unfold Pipeline.afterTail₀
  show StableHlo.after hostOps1 _ (Proc.devRef .tc main_v13) = _
  after_results
  rw [e]
  rfl

section Read
variable (c : Dev nD)

theorem xflat_row (b : Fin 8) (t : Fin 512) (k : Fin 1024) : xflat m c (ix2 (flatRow b t) k) = argX m c (ix3 b t k) := by
  rw [xflat_eq, flatten_apply]
theorem hflat_row (b : Fin 8) (t : Fin 512) (k : Fin 1024) : hflat m c (ix2 (flatRow b t) k) = argH m c (ix3 b t k) := by
  rw [hflat_eq, flatten_apply]
theorem cflat_row (b : Fin 8) (t : Fin 512) (k : Fin 1024) : cflat m c (ix2 (flatRow b t) k) = argC m c (ix3 b t k) := by
  rw [cflat_eq, flatten_apply]
theorem bfR_entry (j : Fin 1024) : bfR m c (ix2 (0 : Fin 1) j) = argBf m c (ix1 j) := by rw [bfR_eq, biasrow_apply]
theorem biR_entry (j : Fin 1024) : biR m c (ix2 (0 : Fin 1) j) = argBi m c (ix1 j) := by rw [biR_eq, biasrow_apply]
theorem bgR_entry (j : Fin 1024) : bgR m c (ix2 (0 : Fin 1) j) = argBg m c (ix1 j) := by rw [bgR_eq, biasrow_apply]
theorem boR_entry (j : Fin 1024) : boR m c (ix2 (0 : Fin 1) j) = argBo m c (ix1 j) := by rw [boR_eq, biasrow_apply]

/-- The first result is the new hidden state of the arguments. -/
theorem result_h : Pipeline.afterTail₀ cfgs (dats m) 0 (V0 m) [hostOps1] c main_v12
    = cellH (argX m c) (argH m c) (argC m c) (argWf m c) (argBf m c) (argWi m c) (argBi m c) (argWg m c) (argBg m c) (argWo m c) (argBo m c) := by
  rw [tail_h, finalH]
  funext i
  obtain ⟨b, t, j, rfl⟩ : ∃ (b : Fin 8) (t : Fin 512) (j : Fin 1024), i = ix3 b t j := ⟨i 0, i 1, i 2, eq_ix3 i⟩
  rw [unflatten_apply, wfA_eq, wiA_eq, wgA_eq, woA_eq]
  exact flatH_eq (argX m c) (argH m c) (argC m c) (xflat m c) (hflat m c) (cflat m c) (xflat_row m c) (hflat_row m c) (cflat_row m c)
    (argWf m c) (argWi m c) (argWg m c) (argWo m c) (bfR m c) (biR m c) (bgR m c) (boR m c) (argBf m c) (argBi m c) (argBg m c) (argBo m c)
    (bfR_entry m c) (biR_entry m c) (bgR_entry m c) (boR_entry m c) b t j

/-- The second result is the new cell state of the arguments. -/
theorem result_c : Pipeline.afterTail₀ cfgs (dats m) 0 (V0 m) [hostOps1] c main_v13
    = cellC (argX m c) (argH m c) (argC m c) (argWf m c) (argBf m c) (argWi m c) (argBi m c) (argWg m c) (argBg m c) := by
  rw [tail_c, finalC]
  funext i
  obtain ⟨b, t, j, rfl⟩ : ∃ (b : Fin 8) (t : Fin 512) (j : Fin 1024), i = ix3 b t j := ⟨i 0, i 1, i 2, eq_ix3 i⟩
  rw [unflatten_apply, wfA_eq, wiA_eq, wgA_eq]
  exact flatC_eq (argX m c) (argH m c) (argC m c) (xflat m c) (hflat m c) (cflat m c) (xflat_row m c) (hflat_row m c) (cflat_row m c)
    (argWf m c) (argWi m c) (argWg m c) (bfR m c) (biR m c) (bgR m c) (argBf m c) (argBi m c) (argBg m c)
    (bfR_entry m c) (biR_entry m c) (bgR_entry m c) b t j

end Read

/-! ## The run, read -/

/-- Every weakly fair execution of the kernel program ends with its two results at the cell of its arguments and its
    arguments unchanged. -/
theorem run : θ_run defs (onTc (τ := τ) (main (F := Ideal))) ⟨m, fun _ => 0, ρ⟩ fun r => ∀ c : Dev nD,
      r.2.mem ((c.tc : Thread nD τ).loc main_v12)
        = cellH (argX m c) (argH m c) (argC m c) (argWf m c) (argBf m c) (argWi m c) (argBi m c) (argWg m c) (argBg m c) (argWo m c) (argBo m c)
      ∧ r.2.mem ((c.tc : Thread nD τ).loc main_v13)
        = cellC (argX m c) (argH m c) (argC m c) (argWf m c) (argBf m c) (argWi m c) (argBi m c) (argWg m c) (argBg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨
      ((h c).2 main_v12 (Pipeline.mem_restRefs_of main_v12 (by decide) (by decide))).trans (result_h m c),
      ((h c).2 main_v13 (Pipeline.mem_restRefs_of main_v13 (by decide) (by decide))).trans (result_c m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Result

end
-- ==== Proof.lean ====
/-
  An LSTM cell step as a Pallas kernel against its jnp reference, equal over the extended reals.

  Both programs compute, for every batch element b, time step t and hidden column j,

    gate_g = (Σ_{k<1024} x[b,t,k] · W_g[k, j] + Σ_{k<1024} h[b,t,k] · W_g[1024 + k, j]) + b_g[j]      (g ∈ {f, i, g, o})
    c_out  = σ(gate_f) · c_in[b,t,j] + tanh(gate_g) · σ(gate_i)
    h_out  = tanh(c_out) · σ(gate_o),                                   σ(z) = 1 / (1 + e^{-z}).

  The kernel flattens (b, t) to 4096 rows, walks them in 16 blocks of 256, and forms each gate as two block products
  (the x block with the upper half of W_g, the h block with its lower half) into zero accumulators, added. The reference
  joins [x, h] into rows of 2048, joins the four weight matrices into 4096 columns and the four biases into one vector,
  forms ONE product and cuts the sum into four bands. The two meet because a sum over 2048 terms is the sum of its first
  1024 and its last 1024 terms, which holds in any commutative monoid, so on the extended reals without any finiteness
  assumption: the precondition is never opened. The changes of float format (f32 to bf16 operands) are the identity on
  the extended reals, a block product into zero is the plain sum of products, and the kernel's logistic is by
  definition the quotient the reference spells.

  Modules: Cell (the cell as mathematics, the split of the sum), CellFlat (the cell over the flattened layout), RefGates
  (the reference's results are the cell), KernelBlock (the body's blocks at an element), KernelArrays (the sixteen blocks
  cover the flattened results), KernelResult (the reshapes around the call; the kernel's results are the cell).
-/
import proofs.«141328_j30734785970219_1_alg».proof.Defs
import proofs.«141328_j30734785970219_1_alg».proof.Proof.Gen.Kernel
import proofs.«141328_j30734785970219_1_alg».proof.Proof.Gen.Kernel.Frame
import proofs.«141328_j30734785970219_1_alg».proof.Proof.Gen.KernelIdeal
import proofs.«141328_j30734785970219_1_alg».proof.Proof.Gen.KernelIdeal.Frame
import proofs.«141328_j30734785970219_1_alg».proof.Proof.Gen.ReferenceIdeal
import proofs.«141328_j30734785970219_1_alg».proof.Proof.Gen.ReferenceIdeal.Run
import proofs.«141328_j30734785970219_1_alg».proof.Proof.Gen.ReferenceIdeal.Read
import proofs.«141328_j30734785970219_1_alg».proof.Proof.Gen.Pre_finite_inputs
import proofs.«141328_j30734785970219_1_alg».proof.Proof.RefGates
import proofs.«141328_j30734785970219_1_alg».proof.Proof.KernelResult
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments, both programs end with the new hidden state and the new cell state of
    the cell, the same two arrays. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v34_eq, Cert.ReferenceIdeal.RefGates.ref_h, e0, e1, e2, e3, e4, e5, e6, e7, e8, e9, e10]
  · obtain ⟨e0, e1, e2, e3, e4, e5, e6, e7, e8, e9, e10⟩ := hagree c
    rw [Cert.ReferenceIdeal.Read.val_main_v32_eq, Cert.ReferenceIdeal.RefGates.ref_c, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
